-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x4096 : Shape := ⟨2, ![32768, 4096]⟩
abbrev S4096x64 : Shape := ⟨2, ![4096, 64]⟩
abbrev S64 : Shape := ⟨1, ![64]⟩
abbrev S_ : Shape := ⟨0, ![]⟩

class Facts : Prop where
  bcast_S_S32768x4096 : S_.BroadcastsInDim S32768x4096 (![] : Fin 0 → Fin S32768x4096.rank)
  reducesTo_S32768x4096_S_d0_1 : S32768x4096.ReducesTo [0, 1] S_
  h_S_ : 0 < S_.numel
  bcast_S_S4096x64 : S_.BroadcastsInDim S4096x64 (![] : Fin 0 → Fin S4096x64.rank)
  reducesTo_S4096x64_S_d0_1 : S4096x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S32768x4096 .f32) (main_arg1 : FVec F S4096x64 .f32) (main_arg2 : FVec F S64 .f32) : IVec S_ 1 :=
  let main_v0 : FVec F S32768x4096 .f32 := Host.absf main_arg0
  let main_cst : FVec F S_ .f32 := constant S_ .f32 0x7F800000#32
  let main_v1 : FVec F S32768x4096 .f32 := broadcastInDim S32768x4096 ![] bcast_S_S32768x4096 main_cst
  let main_v2 : IVec S32768x4096 1 := cmpf .olt main_v0 main_v1
  let main_c : IVec S_ 1 := constantI S_ 1 1#1
  let main_v3 : IVec S_ 1 := (fun x v => Host.reduce IntOp.andi x v reducesTo_S32768x4096_S_d0_1 h_S_) main_v2 main_c
  let main_v4 : FVec F S4096x64 .f32 := Host.absf main_arg1
  let main_cst_0 : FVec F S_ .f32 := constant S_ .f32 0x7F800000#32
  let main_v5 : FVec F S4096x64 .f32 := broadcastInDim S4096x64 ![] bcast_S_S4096x64 main_cst_0
  let main_v6 : IVec S4096x64 1 := cmpf .olt main_v4 main_v5
  let main_c_1 : IVec S_ 1 := constantI S_ 1 1#1
  let main_v7 : IVec S_ 1 := (fun x v => Host.reduce IntOp.andi x v reducesTo_S4096x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S32768x4096 : Shape := ⟨2, ![32768, 4096]⟩
abbrev S4096x64 : Shape := ⟨2, ![4096, 64]⟩
abbrev S64 : Shape := ⟨1, ![64]⟩
abbrev S1x64 : Shape := ⟨2, ![1, 64]⟩
abbrev S32768x64 : Shape := ⟨2, ![32768, 64]⟩
abbrev S1024x4096 : Shape := ⟨2, ![1024, 4096]⟩
abbrev S1024x64 : Shape := ⟨2, ![1024, 64]⟩
abbrev S1024 : Shape := ⟨1, ![1024]⟩
abbrev S1024x1 : Shape := ⟨2, ![1024, 1]⟩

abbrev nBuf : Space → Nat
  | .hbm => 5
  | .vmem => 6
  | .smem => 0
  | _ => 0

abbrev bufTy : (tb : Table) → Fin (tcTables nBuf tb) → BufTy
  | .hbm, ⟨0, _⟩ => ⟨S32768x4096, .f32⟩
  | .hbm, ⟨1, _⟩ => ⟨S4096x64, .f32⟩
  | .hbm, ⟨2, _⟩ => ⟨S64, .f32⟩
  | .hbm, ⟨3, _⟩ => ⟨S1x64, .f32⟩
  | .hbm, ⟨4, _⟩ => ⟨S32768x64, .f32⟩
  | .local _ .vmem, ⟨0, _⟩ => ⟨S1024x4096, .f32⟩
  | .local _ .vmem, ⟨1, _⟩ => ⟨S1024x4096, .f32⟩
  | .local _ .vmem, ⟨2, _⟩ => ⟨S4096x64, .f32⟩
  | .local _ .vmem, ⟨3, _⟩ => ⟨S1x64, .f32⟩
  | .local _ .vmem, ⟨4, _⟩ => ⟨S1024x64, .f32⟩
  | .local _ .vmem, ⟨5, _⟩ => ⟨S1024x64, .f32⟩
  | _, _ => ⟨S32768x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S64_S1x64 : S64.ShapeCasts S1x64
  inb_S1024x4096_S1024x4096_0_0 : ∀ a, (![0, 0] : Fin 2 → Nat) a + S1024x4096.size a ≤ S1024x4096.size a
  h_S1024x4096 : 0 < S1024x4096.numel
  inb_S4096x64_S4096x64_0_0 : ∀ a, (![0, 0] : Fin 2 → Nat) a + S4096x64.size a ≤ S4096x64.size a
  h_S4096x64 : 0 < S4096x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1024x64 : S1x64.Broadcasts S1024x64
  reduces_S1024x64_S1024 : S1024x64.Reduces [1] S1024
  shapeCasts_S1024_S1024x1 : S1024.ShapeCasts S1024x1
  broadcasts_S1024x1_S1024x64 : S1024x1.Broadcasts S1024x64
  inb_S1024x64_S1024x64_0_0 : ∀ a, (![0, 0] : Fin 2 → Nat) a + S1024x64.size a ≤ S1024x64.size a
  h_S1024x64 : 0 < S1024x64.numel
  dot_S1024x4096_S4096x64_S1024x64_1_0_0_1_n_n_wf : DotDims.WF S1024x4096 S4096x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S32768x4096.size a
  hwx0_0 : ∀ i : grid0.Coords, EltTy.bits .f32 = 32 ∨ (Rect.block (s := S32768x4096) S1024x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x64.size a ≤ S4096x64.size a
  hwx0_1 : ∀ i : grid0.Coords, EltTy.bits .f32 = 32 ∨ (Rect.block (s := S4096x64) S4096x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x64.size a ≤ S32768x64.size a
  hwx0_3 : ∀ i : grid0.Coords, EltTy.bits .f32 = 32 ∨ (Rect.block (s := S32768x64) S1024x64.size (cc0_transform_3 i) (hinb0_3 i)).WholeWords (EltTy.packing .f32)

variable [Facts₀]

def dot_S1024x4096_S4096x64_S1024x64_1_0_0_1_n_n : DotDims S1024x4096 S4096x64 S1024x64 where
  lhsContracting := [1]
  rhsContracting := [0]
  lhsNonContracting := [0]
  rhsNonContracting := [1]
  lhsBatch := []
  rhsBatch := []
  wf := dot_S1024x4096_S4096x64_S1024x64_1_0_0_1_n_n_wf

abbrev win0_0 : Pipeline.Window sig grid0 :=
  Pipeline.Window.ofSpec (Memref.whole main_arg0) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32768x4096 : Shape := ⟨2, ![32768, 4096]⟩
abbrev S4096x64 : Shape := ⟨2, ![4096, 64]⟩
abbrev S64 : Shape := ⟨1, ![64]⟩
abbrev S32768x64 : Shape := ⟨2, ![32768, 64]⟩
abbrev S1x64 : Shape := ⟨2, ![1, 64]⟩
abbrev S_ : Shape := ⟨0, ![]⟩
abbrev S32768 : Shape := ⟨1, ![32768]⟩
abbrev S32768x1 : Shape := ⟨2, ![32768, 1]⟩

abbrev nBuf : Space → Nat
  | .hbm => 21
  | .vmem => 0
  | .smem => 0
  | _ => 0

abbrev bufTy : (tb : Table) → Fin (tcTables nBuf tb) → BufTy
  | .hbm, ⟨0, _⟩ => ⟨S32768x4096, .f32⟩
  | .hbm, ⟨1, _⟩ => ⟨S4096x64, .f32⟩
  | .hbm, ⟨2, _⟩ => ⟨S64, .f32⟩
  | .hbm, ⟨3, _⟩ => ⟨S32768x64, .f32⟩
  | .hbm, ⟨4, _⟩ => ⟨S1x64, .f32⟩
  | .hbm, ⟨5, _⟩ => ⟨S32768x64, .f32⟩
  | .hbm, ⟨6, _⟩ => ⟨S32768x64, .f32⟩
  | .hbm, ⟨7, _⟩ => ⟨S_, .f32⟩
  | .hbm, ⟨8, _⟩ => ⟨S32768, .f32⟩
  | .hbm, ⟨9, _⟩ => ⟨S_, .f32⟩
  | .hbm, ⟨10, _⟩ => ⟨S32768, .f32⟩
  | .hbm, ⟨11, _⟩ => ⟨S32768, .f32⟩
  | .hbm, ⟨12, _⟩ => ⟨S32768x1, .f32⟩
  | .hbm, ⟨13, _⟩ => ⟨S32768x64, .f32⟩
  | .hbm, ⟨14, _⟩ => ⟨S32768x64, .f32⟩
  | .hbm, ⟨15, _⟩ => ⟨S32768x64, .f32⟩
  | .hbm, ⟨16, _⟩ => ⟨S_, .f32⟩
  | .hbm, ⟨17, _⟩ => ⟨S32768, .f32⟩
  | .hbm, ⟨18, _⟩ => ⟨S32768x1, .f32⟩
  | .hbm, ⟨19, _⟩ => ⟨S32768x64, .f32⟩
  | .hbm, ⟨20, _⟩ => ⟨S32768x64, .f32⟩
  | _, _ => ⟨S32768x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S32768x64_0_1 : S1x64.BroadcastsInDim S32768x64 (![0, 1] : Fin 2 → Fin S32768x64.rank)
  reducesTo_S32768x64_S32768_d1 : S32768x64.ReducesTo [1] S32768
  h_S_ : 0 < S_.numel
  bcast_S_S32768 : S_.BroadcastsInDim S32768 (![] : Fin 0 → Fin S32768.rank)
  bcast_S32768_S32768x1_0 : S32768.BroadcastsInDim S32768x1 (![0] : Fin 1 → Fin S32768x1.rank)
  bcast_S32768x1_S32768x64_0_1 : S32768x1.BroadcastsInDim S32768x64 (![0, 1] : Fin 2 → Fin S32768x64.rank)
  dot_S32768x4096_S4096x64_S32768x64_1_0_0_1_n_n_wf : DotDims.WF S32768x4096 S4096x64 S32768x64 [1] [0] [0] [1] [] []

variable [Facts₀]

def dot_S32768x4096_S4096x64_S32768x64_1_0_0_1_n_n : DotDims S32768x4096 S4096x64 S32768x64 where
  lhsContracting := [1]
  rhsContracting := [0]
  lhsNonContracting := [0]
  rhsNonContracting := [1]
  lhsBatch := []
  rhsBatch := []
  wf := dot_S32768x4096_S4096x64_S32768x64_1_0_0_1_n_n_wf

class Facts : Prop extends Facts₀ where

variable [Facts]
-- ==== Proof.Softmax.lean ====
/-
  Row softmax on the extended reals, in the two spellings that meet in this certificate.

  For a row `l : Fin n → EReal` of logits let `rowTop l` be the largest entry (a fold of `max` from `-∞`),
  `shifted l e = exp (l e - rowTop l)` and `mass l = ∑ e, shifted l e`. One program normalises by the product with
  the reciprocal, `shifted l e * (1 / mass l)`; the other by the quotient, `shifted l e / mass l`. On the extended
  reals the quotient `a / s` is `a * s⁻¹` off `s = 0`, and `1 / s` is `1 * s⁻¹` there, so the two agree whenever the mass is
  not zero (at `s = 0` they differ: `0 * (1 / 0) = 0 * ⊤ = 0` while `0 / 0 = ⊥`). The mass of a row of REAL logits is not
  zero: the top of such a row is real, every shifted exponent is then the exponential of a real, hence positive, and a
  sum of nonnegative terms vanishes only if every term does.
-/
import Idealize.ShloMosaic.PureOps.Ideal
import Mathlib.Algebra.Order.BigOperators.Group.Finset
import Mathlib.Data.Finset.Fold

noncomputable section

open scoped BigOperators

namespace Cert.Softmax

open Idealize.ShloMosaic

/-! ## Real entries -/

/-- An extended real that is a real number. -/
def IsReal (a : EReal) : Prop := ∃ r : ℝ, a = (r : EReal)

theorem IsReal.zero : IsReal 0 := ⟨0, rfl⟩

theorem IsReal.add {a b : EReal} : IsReal a → IsReal b → IsReal (a + b)
  | ⟨r, hr⟩, ⟨s, hs⟩ => ⟨r + s, by rw [hr, hs, EReal.coe_add]⟩

theorem IsReal.mul {a b : EReal} : IsReal a → IsReal b → IsReal (a * b)
  | ⟨r, hr⟩, ⟨s, hs⟩ => ⟨r * s, by rw [hr, hs, EReal.coe_mul]⟩

theorem IsReal.sub {a b : EReal} : IsReal a → IsReal b → IsReal (a - b)
  | ⟨r, hr⟩, ⟨s, hs⟩ => ⟨r - s, by rw [hr, hs, EReal.coe_sub]⟩

/-- A finite sum of reals is real. -/
theorem IsReal.sum {ι : Type*} (s : Finset ι) (f : ι → EReal) (h : ∀ i ∈ s, IsReal (f i)) : IsReal (∑ i ∈ s, f i) :=
  Finset.sum_induction f IsReal (fun _ _ => IsReal.add) IsReal.zero h

theorem IsReal.ne_top {a : EReal} : IsReal a → a ≠ ⊤
  | ⟨r, hr⟩ => hr ▸ EReal.coe_ne_top r

theorem IsReal.ne_bot {a : EReal} : IsReal a → a ≠ ⊥
  | ⟨r, hr⟩ => hr ▸ EReal.coe_ne_bot r

/-- Neither infinity: a real. -/
theorem isReal_of_ne {a : EReal} (hb : a ≠ ⊥) (ht : a ≠ ⊤) : IsReal a := by
  induction a using EReal.rec with
  | bot => exact absurd rfl hb
  | top => exact absurd rfl ht
  | coe r => exact ⟨r, rfl⟩

/-! ## The exponential -/

/-- The exponential is nowhere negative (`exp (-∞) = 0`, `exp (+∞) = +∞`). -/
theorem exp_nonneg (x : EReal) : 0 ≤ Ideal.exp x := by
  induction x using EReal.rec with
  | bot => exact le_of_eq rfl
  | top => exact le_top
  | coe r => exact EReal.coe_nonneg.2 (Real.exp_pos r).le

/-- … and positive, in particular not zero, at a real. -/
theorem exp_ne_zero {x : EReal} : IsReal x → Ideal.exp x ≠ 0
  | ⟨r, hr⟩ => by
    rw [hr]
    exact EReal.coe_ne_zero.2 (Real.exp_pos r).ne'

/-! ## The row's pieces -/

variable {n : Nat}

/-- The largest entry of a row, from `-∞`. -/
def rowTop (l : Fin n → EReal) : EReal := (Finset.univ : Finset (Fin n)).fold max ⊥ l

/-- An entry's exponential after the top is taken off. -/
def shifted (l : Fin n → EReal) (e : Fin n) : EReal := Ideal.exp (l e - rowTop l)

/-- The row's total of shifted exponentials. -/
def mass (l : Fin n → EReal) : EReal := ∑ e : Fin n, shifted l e

/-- Normalised by the product with the mass's reciprocal. -/
def softRecip (l : Fin n → EReal) (e : Fin n) : EReal := shifted l e * Ideal.div 1 (mass l)

/-- Normalised by the quotient by the mass. -/
def softQuot (l : Fin n → EReal) (e : Fin n) : EReal := Ideal.div (shifted l e) (mass l)

/-- The top of a nonempty row of reals is real: it is below `+∞` because every entry is, and above `-∞` because it is
    at least the first entry. -/
theorem rowTop_isReal (l : Fin n → EReal) (hn : 0 < n) (hl : ∀ e, IsReal (l e)) : IsReal (rowTop l) := by
  refine isReal_of_ne ?_ ?_
  · have h : l ⟨0, hn⟩ ≤ rowTop l := (Finset.le_fold_max _).2 (Or.inr ⟨⟨0, hn⟩, Finset.mem_univ _, le_rfl⟩)
    intro hb
    rw [hb] at h
    exact (hl ⟨0, hn⟩).ne_bot (le_bot_iff.1 h)
  · exact ((Finset.fold_max_lt _).2 ⟨bot_lt_top, fun e _ => lt_top_iff_ne_top.2 (hl e).ne_top⟩).ne

/-- The mass of a nonempty row of reals is not zero. -/
theorem mass_ne_zero (l : Fin n → EReal) (hn : 0 < n) (hl : ∀ e, IsReal (l e)) : mass l ≠ 0 := by
  intro h
  have h0 := (Finset.sum_eq_zero_iff_of_nonneg (fun e _ => exp_nonneg (l e - rowTop l))).1 h ⟨0, hn⟩ (Finset.mem_univ _)
  exact exp_ne_zero ((hl ⟨0, hn⟩).sub (rowTop_isReal l hn hl)) h0

/-- Off a zero mass the two normalisations are one: `a * (1 * s⁻¹) = a * s⁻¹`. -/
theorem softRecip_eq_softQuot (l : Fin n → EReal) (h : mass l ≠ 0) (e : Fin n) : softRecip l e = softQuot l e := by
  unfold softRecip softQuot Ideal.div
  rw [if_neg h, if_neg h, one_mul]

end Cert.Softmax

end
-- ==== Proof.Router.lean ====
/-
  The router's probabilities as ONE function of the three argument arrays, index by index.

  Token `r`'s logits are `logit x W b r e = (∑ k, x (r, k) * W (k, e)) + b e` over the 64 experts `e`; its probabilities are
  the row softmax of these. `probsRecip` normalises by the product with the reciprocal of the row's mass, `probsQuot` by
  the quotient (Softmax.lean). Where every entry of `x`, `W` and `b` is real, every logit is real — a finite sum of
  products of reals plus a real — so no row's mass is zero and the two arrays are one.
-/
import proofs.«154002_g36782099923439_cont_sun_c4_695_4_alg».proof.Proof.Softmax
import Idealize.ShloMosaic.Lib.ValueIdx

noncomputable section

open scoped BigOperators

namespace Cert.Router

open Idealize.ShloMosaic Idealize.ShloMosaic.ValueIdx Cert.Softmax

abbrev SX : Shape := ⟨2, ![32768, 4096]⟩
abbrev SW : Shape := ⟨2, ![4096, 64]⟩
abbrev SB : Shape := ⟨1, ![64]⟩
abbrev SO : Shape := ⟨2, ![32768, 64]⟩

/-- Token `r`'s logits: the token's row of `x` against each expert's column of `W`, plus the expert's bias. -/
def logit (x : SX.Idx → EReal) (W : SW.Idx → EReal) (b : SB.Idx → EReal) (r : Fin 32768) : Fin 64 → EReal :=
  fun e => (∑ k : Fin 4096, x (ix2 r k) * W (ix2 k e)) + b (ix1 e)

/-- The probabilities, each row's exponentials times the reciprocal of their total. -/
def probsRecip (x : SX.Idx → EReal) (W : SW.Idx → EReal) (b : SB.Idx → EReal) : SO.Idx → EReal :=
  fun i => softRecip (logit x W b (i 0)) (i 1)

/-- The probabilities, each row's exponentials divided by their total. -/
def probsQuot (x : SX.Idx → EReal) (W : SW.Idx → EReal) (b : SB.Idx → EReal) : SO.Idx → EReal :=
  fun i => softQuot (logit x W b (i 0)) (i 1)

/-- Real arrays have real logits. -/
theorem logit_isReal (x : SX.Idx → EReal) (W : SW.Idx → EReal) (b : SB.Idx → EReal)
    (hx : ∀ i, IsReal (x i)) (hW : ∀ i, IsReal (W i)) (hb : ∀ i, IsReal (b i)) (r : Fin 32768) (e : Fin 64) :
    IsReal (logit x W b r e) :=
  (IsReal.sum _ _ fun k _ => (hx _).mul (hW _)).add (hb _)

/-- On real arrays the two normalisations give one array. -/
theorem probsRecip_eq_probsQuot (x : SX.Idx → EReal) (W : SW.Idx → EReal) (b : SB.Idx → EReal)
    (hx : ∀ i, IsReal (x i)) (hW : ∀ i, IsReal (W i)) (hb : ∀ i, IsReal (b i)) :
    probsRecip x W b = probsQuot x W b :=
  funext fun i => softRecip_eq_softQuot _ (mass_ne_zero _ (by decide) (logit_isReal x W b hx hW hb (i 0))) (i 1)

end Cert.Router

end
-- ==== Proof.Finite.lean ====
/-
  What the precondition says: every entry of the three argument arrays is a real number.

  The printed predicate is the conjunction of three `all`-reductions of the comparison `|a| < +∞`, one per array. An
  `all` that came out true met only true entries, and an extended real whose magnitude is below `+∞` is neither
  infinity.
-/
import proofs.«154002_g36782099923439_cont_sun_c4_695_4_alg».proof.Proof.Gen.Pre_finite_inputs
import proofs.«154002_g36782099923439_cont_sun_c4_695_4_alg».proof.Proof.Softmax
import Idealize.ShloMosaic.Lib.ReduceAll
import Idealize.ShloMosaic.Lib.ValueIdx
import Idealize.ShloMosaic.PureOps.Ideal.Laws

noncomputable section

namespace Cert.Router.Finite

open Idealize.ShloMosaic Cert.Softmax Cert.Pre_finite_inputs Cert.Pre_finite_inputs.Gen

instance : Subsingleton S_.Idx := ⟨fun _ _ => funext fun d => d.elim0⟩

/-- The pattern of `+∞`. -/
theorem posInf : Ideal.ofBits .f32 0x7F800000#32 = ⊤ := by simp [Ideal.ofBits, Ideal.ieee]

/-- A magnitude below `+∞` belongs to a real: at either infinity the magnitude is `+∞` itself. -/
theorem isReal_of_abs_lt (a : EReal)
    (h : FloatOps.cmpf (F := Ideal) (φ := .f32) .olt (FloatOps.hostAbsf a) (FloatOps.ofBits .f32 0x7F800000#32) = 1#1) :
    IsReal a := by
  rw [Ideal.hostAbsf_def, Ideal.absf_def, Ideal.cmpf_def, Ideal.ofBits_def, posInf] at h
  induction a using EReal.rec with
  | bot => simp [Ideal.cmp] at h
  | top => simp [Ideal.cmp] at h
  | coe r => exact ⟨r, rfl⟩

/-- Under the printed precondition all three arrays are real, entry by entry. -/
theorem reals_of_pre (x0 : FVec Ideal S32768x4096 .f32) (x1 : FVec Ideal S4096x64 .f32) (x2 : FVec Ideal S64 .f32)
    (h : fn (F := Ideal) x0 x1 x2 = fun _ => 1#1) :
    (∀ i, IsReal (x0 i)) ∧ (∀ i, IsReal (x1 i)) ∧ (∀ i, IsReal (x2 i)) := by
  have h0 := congrFun h ValueIdx.ix0
  dsimp only [fn, andi] at h0
  obtain ⟨h01, h2⟩ := IntOp.andi_eq_one.1 h0
  obtain ⟨h0', h1⟩ := IntOp.andi_eq_one.1 h01
  refine ⟨fun i => ?_, fun i => ?_, fun i => ?_⟩
  · exact isReal_of_abs_lt _ (Host.reduce_andi_all _ _ _ _ _ h0' i)
  · exact isReal_of_abs_lt _ (Host.reduce_andi_all _ _ _ _ _ h1 i)
  · exact isReal_of_abs_lt _ (Host.reduce_andi_all _ _ _ _ _ h2 i)

end Cert.Router.Finite

end
-- ==== Proof.RefRead.lean ====
/-
  The reference's result, read one operation at a time, is the quotient-normalised probabilities `probsQuot`.

  Its stages at an index: the sum of products plus the broadcast bias is the token's logit; the row maximum — a
  reduction by `max` from `-∞`, then once more `max` with `-∞` — is the row's top; the exponential of the difference is the
  shifted exponential; the row sum from `0` is the mass; the last stage divides.
-/
import proofs.«154002_g36782099923439_cont_sun_c4_695_4_alg».proof.Proof.Gen.ReferenceIdeal.Read
import proofs.«154002_g36782099923439_cont_sun_c4_695_4_alg».proof.Proof.Router
import Idealize.ShloMosaic.PureOps.Reduce

noncomputable section

open scoped BigOperators

namespace Cert.Router.Ref

open Idealize.ShloMosaic Idealize.ShloMosaic.ValueIdx Cert.Softmax Cert.Router
open Cert.ReferenceIdeal Cert.ReferenceIdeal.Gen Cert.ReferenceIdeal.Read

variable (x0 : (⟨S32768x4096, .f32⟩ : BufTy).Contents (Elt Ideal)) (x1 : (⟨S4096x64, .f32⟩ : BufTy).Contents (Elt Ideal))
  (x2 : (⟨S64, .f32⟩ : BufTy).Contents (Elt Ideal))

/-- The pattern of `-∞`. -/
theorem negInf : Ideal.ofBits .f32 0xFF800000#32 = ⊥ := by simp [Ideal.ofBits, Ideal.ieee]

/-- The biased product at (r, e) is token `r`'s logit for expert `e`. -/
theorem v3_at (r : Fin 32768) (e : Fin 64) : val_main_v3 (F := Ideal) x0 x1 x2 (ix2 r e) = logit x0 x1 x2 r e := by
  rw [val_main_v3_apply, val_main_v0_apply, val_main_v2_apply, val_main_v1_apply]
  unfold logit
  show (∑ k : Fin 4096, _) + _ = (∑ k : Fin 4096, _) + _
  refine congrArg₂ (· + ·) (Finset.sum_congr rfl fun k _ => ?_) ?_
  · refine congrArg₂ (· * ·) (congrArg x0 ?_) (congrArg x1 ?_)
    · exact funext fun a => Fin.ext (by match a with | ⟨0, _⟩ => rfl | ⟨1, _⟩ => rfl)
    · exact funext fun a => Fin.ext (by match a with | ⟨0, _⟩ => rfl | ⟨1, _⟩ => rfl)
  · exact congrArg x2 (funext fun a => Fin.ext (by match a with | ⟨0, _⟩ => rfl))

/-- The row maximum at r is the top of token `r`'s logits. -/
theorem v6_at (r : Fin 32768) : val_main_v6 (F := Ideal) x0 x1 x2 (ix1 r) = rowTop (logit x0 x1 x2 r) := by
  rw [val_main_v6_apply, val_main_v5_apply, val_main_cst_0_apply]
  unfold val_main_v4
  rw [Host.reduce_eq_fold_single FloatOps.maximumf _ _ reducesTo_S32768x64_S32768_d1 (by decide) h_S_, val_main_cst_apply]
  show max (Ideal.ofBits .f32 0xFF800000#32) (Finset.fold max (Ideal.ofBits .f32 0xFF800000#32) _ (Finset.univ : Finset (Fin 64))) = _
  rw [negInf, max_eq_right bot_le]
  unfold rowTop
  refine congrArg (fun f => Finset.fold max ⊥ f (Finset.univ : Finset (Fin 64))) (funext fun k => ?_)
  refine Eq.trans (congrArg (val_main_v3 (F := Ideal) x0 x1 x2) ?_) (v3_at x0 x1 x2 r k)
  exact funext fun a => Fin.ext (by match a with | ⟨0, _⟩ => rfl | ⟨1, _⟩ => rfl)

/-- The exponential stage at (r, e) is the shifted exponential of the token's logits. -/
theorem v10_at (r : Fin 32768) (e : Fin 64) : val_main_v10 (F := Ideal) x0 x1 x2 (ix2 r e) = shifted (logit x0 x1 x2 r) e := by
  rw [val_main_v10_apply, val_main_v9_apply, val_main_v8_apply, val_main_v7_apply, v3_at]
  unfold shifted
  show Ideal.exp (_ - _) = _
  refine congrArg (fun t => Ideal.exp (logit x0 x1 x2 r e - t)) ?_
  refine Eq.trans (congrArg (val_main_v6 (F := Ideal) x0 x1 x2) ?_) (v6_at x0 x1 x2 r)
  exact funext fun a => Fin.ext (by match a with | ⟨0, _⟩ => rfl)

/-- The row sum at r is the mass of the token's logits. -/
theorem v11_at (r : Fin 32768) : val_main_v11 (F := Ideal) x0 x1 x2 (ix1 r) = mass (logit x0 x1 x2 r) := by
  rw [val_main_v11_apply, val_main_cst_1_apply]
  unfold mass
  show Ideal.ofBits .f32 0x00000000#32 + _ = _
  rw [Ideal.ofBits_zero_f32, zero_add]
  refine Finset.sum_congr rfl fun k _ => ?_
  refine Eq.trans (congrArg (val_main_v10 (F := Ideal) x0 x1 x2) ?_) (v10_at x0 x1 x2 r k)
  exact funext fun a => Fin.ext (by match a with | ⟨0, _⟩ => rfl | ⟨1, _⟩ => rfl)

/-- The reference's result array is `probsQuot` of its arguments. -/
theorem result_eq : val_main_v14 (F := Ideal) x0 x1 x2 = probsQuot x0 x1 x2 := by
  funext i
  obtain ⟨r, e, rfl⟩ : ∃ (r : Fin 32768) (e : Fin 64), i = ix2 r e := ⟨i 0, i 1, eq_ix2 i⟩
  rw [val_main_v14_apply, val_main_v13_apply, val_main_v12_apply, v10_at]
  unfold probsQuot softQuot
  show Ideal.div _ _ = _
  refine congrArg (fun t => Ideal.div (shifted (logit x0 x1 x2 r) e) t) ?_
  refine Eq.trans (congrArg (val_main_v11 (F := Ideal) x0 x1 x2) ?_) (v11_at x0 x1 x2 r)
  exact funext fun a => Fin.ext (by match a with | ⟨0, _⟩ => rfl)

end Cert.Router.Ref

end
-- ==== Proof.KernelPay.lean ====
/-
  What the kernel body computes on one block of 1024 tokens, read at an index.

  The body's one payload is a function of the block of `x` (1024 × 4096), of `W` (4096 × 64) and of the bias as a
  1 × 64 row. Its head is the biased product, the block's logits: at (p, q) the sum over k of `x (p, k) * W (k, q)` plus
  the bias at q. Its tail is the row softmax of those logits in the reciprocal spelling: the row maximum as a lane
  reduction from `-∞`, kept as a column and broadcast back; the exponential of the difference; the row sum from `0`, kept
  as a column; `1` divided by it, broadcast back; the product.
-/
import proofs.«154002_g36782099923439_cont_sun_c4_695_4_alg».proof.Proof.Gen.KernelIdeal.Skeleton
import proofs.«154002_g36782099923439_cont_sun_c4_695_4_alg».proof.Proof.Softmax
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

noncomputable section

open scoped BigOperators

namespace Cert.Router.Pay

open Idealize.ShloMosaic Idealize.ShloMosaic.ValueIdx Cert.Softmax
open Cert.KernelIdeal Cert.KernelIdeal.Gen

/-! ## Two keepdims layouts read at an index -/

/-- A vector of length `a` cast to an `a × 1` column reads, at (p, 0), the vector at p. -/
theorem shapeCast_col_apply {a : ℕ} {α : Type} (w : (⟨1, ![a]⟩ : Shape).Idx → α)
    (h : (⟨1, ![a]⟩ : Shape).ShapeCasts ⟨2, ![a, 1]⟩) (p : Fin a) (z : Fin 1) :
    shapeCast ⟨2, ![a, 1]⟩ w h (ix2 p z) = w (ix1 p) := by
  refine shapeCast_apply w h (ix2 p z) (ix1 p) ?_
  rw [Shape.rowMajor_val_one, Shape.rowMajor_val_two]
  show p.val = p.val * 1 + z.val
  have := z.isLt
  omega

/-- An `a × 1` column broadcast to `a × b` reads, at (p, c), the column at (p, 0). -/
theorem broadcastTo_col_apply {a b : ℕ} {α : Type} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-! ## The product -/

theorem lhs_0 (i : S1024x64.Idx) (q : dot_S1024x4096_S4096x64_S1024x64_1_0_0_1_n_n.contr.Idx) : (dot_S1024x4096_S4096x64_S1024x64_1_0_0_1_n_n.lhsIdx i q 0).val = (i 0).val := by
  unfold DotDims.lhsIdx
  rw [dif_neg (show ¬(0 : Fin S1024x4096.rank) ∈ dot_S1024x4096_S4096x64_S1024x64_1_0_0_1_n_n.lhsBatch by decide), dif_pos (show (0 : Fin S1024x4096.rank) ∈ dot_S1024x4096_S4096x64_S1024x64_1_0_0_1_n_n.lhsNonContracting by decide)]
  rfl
theorem lhs_1 (i : S1024x64.Idx) (q : dot_S1024x4096_S4096x64_S1024x64_1_0_0_1_n_n.contr.Idx) : (dot_S1024x4096_S4096x64_S1024x64_1_0_0_1_n_n.lhsIdx i q 1).val = (q ⟨0, by decide⟩).val :=
  dot_S1024x4096_S4096x64_S1024x64_1_0_0_1_n_n.lhsIdx_val_of_single rfl i q
theorem rhs_0 (i : S1024x64.Idx) (q : dot_S1024x4096_S4096x64_S1024x64_1_0_0_1_n_n.contr.Idx) : (dot_S1024x4096_S4096x64_S1024x64_1_0_0_1_n_n.rhsIdx i q 0).val = (q ⟨0, by decide⟩).val :=
  dot_S1024x4096_S4096x64_S1024x64_1_0_0_1_n_n.rhsIdx_val_of_single rfl i q
theorem rhs_1 (i : S1024x64.Idx) (q : dot_S1024x4096_S4096x64_S1024x64_1_0_0_1_n_n.contr.Idx) : (dot_S1024x4096_S4096x64_S1024x64_1_0_0_1_n_n.rhsIdx i q 1).val = (i 1).val := by
  unfold DotDims.rhsIdx
  rw [dif_neg (show ¬(1 : Fin S4096x64.rank) ∈ dot_S1024x4096_S4096x64_S1024x64_1_0_0_1_n_n.rhsBatch by decide), dif_pos (show (1 : Fin S4096x64.rank) ∈ dot_S1024x4096_S4096x64_S1024x64_1_0_0_1_n_n.rhsNonContracting by decide)]
  rfl

/-- The block product into a zero accumulator, at (p, q): row p of the left block against column q of the right. -/
theorem product_at (v0 : Vec Ideal S1024x4096 .f32) (v1 : Vec Ideal S4096x64 .f32) (p : Fin 1024) (q : Fin 64) :
    matmul (F := Ideal) (φ₁ := .f32) (φ₂ := .f32) dot_S1024x4096_S4096x64_S1024x64_1_0_0_1_n_n none v0 v1 (constant (F := Ideal) S1024x64 .f32 0x00000000#32) (ix2 p q)
      = ∑ k : Fin 4096, v0 (ix2 p k) * v1 (ix2 k q) := by
  simp only [matmul]
  rw [Ideal.matmul_constant_zero_apply, ← Equiv.sum_comp (ValueIdx.contrEquiv1 dot_S1024x4096_S4096x64_S1024x64_1_0_0_1_n_n 4096 rfl rfl).symm]
  refine Finset.sum_congr rfl fun k _ => ?_
  have hk := ValueIdx.contrEquiv1_symm_val dot_S1024x4096_S4096x64_S1024x64_1_0_0_1_n_n 4096 rfl rfl k
  have el : dot_S1024x4096_S4096x64_S1024x64_1_0_0_1_n_n.lhsIdx (ix2 p q) ((ValueIdx.contrEquiv1 dot_S1024x4096_S4096x64_S1024x64_1_0_0_1_n_n 4096 rfl rfl).symm k) = ix2 p k := funext fun a => Fin.ext (by
    match a with
    | ⟨0, _⟩ => exact lhs_0 _ _
    | ⟨1, _⟩ => exact (lhs_1 _ _).trans hk)
  have er : dot_S1024x4096_S4096x64_S1024x64_1_0_0_1_n_n.rhsIdx (ix2 p q) ((ValueIdx.contrEquiv1 dot_S1024x4096_S4096x64_S1024x64_1_0_0_1_n_n 4096 rfl rfl).symm k) = ix2 k q := funext fun a => Fin.ext (by
    match a with
    | ⟨0, _⟩ => exact (rhs_0 _ _).trans hk
    | ⟨1, _⟩ => exact rhs_1 _ _)
  rw [el, er]

/-! ## The block's logits -/

/-- Row p's logits within a block: the row of the block of `x` against each column of `W`, plus the bias row. -/
def blockLogit (v0 : Vec Ideal S1024x4096 .f32) (v1 : Vec Ideal S4096x64 .f32) (v3 : Vec Ideal S1x64 .f32) (p : Fin 1024) :
    Fin 64 → EReal :=
  fun e => (∑ k : Fin 4096, v0 (ix2 p k) * v1 (ix2 k e)) + v3 (ix2 (0 : Fin 1) e)

/-- The payload's head: the biased product. -/
def head {F : FTy → Type} [FloatOps F] (v0 : Vec F S1024x4096 .f32) (v1 : Vec F S4096x64 .f32) (v3 : Vec F S1x64 .f32) :
    FVec F S1024x64 .f32 :=
  addf (matmul dot_S1024x4096_S4096x64_S1024x64_1_0_0_1_n_n none v0 v1 (constant S1024x64 .f32 0x00000000#32))
    (broadcastTo S1024x64 (shapeCast S1x64 v3 shapeCasts_S1x64_S1x64) broadcasts_S1x64_S1024x64)

theorem head_at (v0 : Vec Ideal S1024x4096 .f32) (v1 : Vec Ideal S4096x64 .f32) (v3 : Vec Ideal S1x64 .f32)
    (p : Fin 1024) (q : Fin 64) : head (F := Ideal) v0 v1 v3 (ix2 p q) = blockLogit v0 v1 v3 p q := by
  unfold head blockLogit
  rw [addf_apply, product_at, shapeCast_self, broadcastTo_1b_ab_apply]

/-! ## The softmax tail -/

/-- The payload's tail, of any 1024 × 64 array of logits. -/
def tail {F : FTy → Type} [FloatOps F] (v6 : FVec F S1024x64 .f32) : FVec F S1024x64 .f32 :=
  have v7 : FVec F S1024 .f32 := multiReduction .maximumf [1] S1024 v6 0xFF800000#32 reduces_S1024x64_S1024 (.inl rfl) rfl
  have v8 : FVec F S1024x1 .f32 := shapeCast S1024x1 v7 shapeCasts_S1024_S1024x1
  have v9 : FVec F S1024x64 .f32 := broadcastTo S1024x64 v8 broadcasts_S1024x1_S1024x64
  have v10 : FVec F S1024x64 .f32 := subf v6 v9
  have v11 : FVec F S1024x64 .f32 := exp v10
  have v12 : FVec F S1024 .f32 := multiReduction .add [1] S1024 v11 0x00000000#32 reduces_S1024x64_S1024 (.inl rfl) rfl
  have v13 : FVec F S1024x1 .f32 := shapeCast S1024x1 v12 shapeCasts_S1024_S1024x1
  have cst_7 : F .f32 := Scalar.ofBits .f32 0x3F800000#32
  have v14 : FVec F S1024x1 .f32 := broadcast S1024x1 cst_7
  have v15 : FVec F S1024x1 .f32 := divf v14 v13
  have v16 : FVec F S1024x64 .f32 := broadcastTo S1024x64 v15 broadcasts_S1024x1_S1024x64
  have v17 : FVec F S1024x64 .f32 := mulf v11 v16
  v17

/-- The payload is the tail of the head. -/
theorem pay_eq {F : FTy → Type} [FloatOps F] (v0 : Vec F S1024x4096 .f32) (v1 : Vec F S4096x64 .f32) (v3 : Vec F S1x64 .f32) :
    k0_pay1 v0 v1 v3 = tail (head v0 v1 v3) := rfl

/-- The lane maximum of row p, from `-∞`, is the row's top. -/
theorem rowmax_at (v6 : FVec Ideal S1024x64 .f32) (p : Fin 1024) :
    multiReduction (F := Ideal) .maximumf [1] S1024 v6 0xFF800000#32 reduces_S1024x64_S1024 (.inl rfl) rfl (ix1 p)
      = rowTop fun e => v6 (ix2 p e) := by
  refine (Ideal.multiReduction_maximumf_single v6 0xFF800000#32 reduces_S1024x64_S1024 (.inl rfl) rfl (ix1 p)).trans ?_
  show Finset.fold max (Ideal.ofBits .f32 0xFF800000#32) _ (Finset.univ : Finset (Fin 64)) = _
  rw [show Ideal.ofBits .f32 0xFF800000#32 = ⊥ by simp [Ideal.ofBits, Ideal.ieee]]
  unfold rowTop
  refine congrArg (fun f => Finset.fold max ⊥ f (Finset.univ : Finset (Fin 64))) (funext fun k => ?_)
  exact congrArg v6 (funext fun a => Fin.ext (by match a with | ⟨0, _⟩ => rfl | ⟨1, _⟩ => rfl))

/-- The lane sum of row p, from `0`. -/
theorem rowsum_at (v11 : FVec Ideal S1024x64 .f32) (p : Fin 1024) :
    multiReduction (F := Ideal) .add [1] S1024 v11 0x00000000#32 reduces_S1024x64_S1024 (.inl rfl) rfl (ix1 p)
      = ∑ e : Fin 64, v11 (ix2 p e) := by
  refine (Ideal.multiReduction_add_single v11 0x00000000#32 reduces_S1024x64_S1024 (.inl rfl) rfl (ix1 p)).trans ?_
  show (∑ k : Fin 64, _) = _
  refine Finset.sum_congr rfl fun k _ => ?_
  exact congrArg v11 (funext fun a => Fin.ext (by match a with | ⟨0, _⟩ => rfl | ⟨1, _⟩ => rfl))

/-- A per-row value kept as a column and broadcast back over the lanes reads, at (p, q), the value of row p. -/
theorem kept_at (w : FVec Ideal S1024 .f32) (p : Fin 1024) (q : Fin 64) :
    broadcastTo S1024x64 (shapeCast S1024x1 w shapeCasts_S1024_S1024x1) broadcasts_S1024x1_S1024x64 (ix2 p q) = w (ix1 p) := by
  rw [broadcastTo_col_apply, shapeCast_col_apply]

/-- The shifted exponentials inside the tail. -/
theorem shifted_at (v6 : FVec Ideal S1024x64 .f32) (p : Fin 1024) (q : Fin 64) :
    exp (subf v6 (broadcastTo S1024x64 (shapeCast S1024x1
        (multiReduction (F := Ideal) .maximumf [1] S1024 v6 0xFF800000#32 reduces_S1024x64_S1024 (.inl rfl) rfl) shapeCasts_S1024_S1024x1)
        broadcasts_S1024x1_S1024x64)) (ix2 p q)
      = shifted (fun e => v6 (ix2 p e)) q := by
  show Ideal.exp (v6 (ix2 p q) - _) = _
  rw [kept_at, rowmax_at]
  rfl

/-- The tail at (p, q) is the reciprocal-normalised softmax of row p. -/
theorem tail_at (v6 : FVec Ideal S1024x64 .f32) (p : Fin 1024) (q : Fin 64) :
    tail (F := Ideal) v6 (ix2 p q) = softRecip (fun e => v6 (ix2 p e)) q := by
  unfold tail
  dsimp only
  rw [mulf_apply, shifted_at, broadcastTo_col_apply]
  unfold softRecip
  refine congrArg (fun t => shifted (fun e => v6 (ix2 p e)) q * t) ?_
  show Ideal.div (Ideal.ofBits .f32 0x3F800000#32) _ = _
  rw [Ideal.ofBits_one_f32, shapeCast_col_apply, rowsum_at]
  unfold mass
  exact congrArg (Ideal.div 1) (Finset.sum_congr rfl fun e _ => shifted_at v6 p e)

/-- The payload at (p, q): the reciprocal-normalised softmax of the block's row p of logits. -/
theorem pay_at (v0 : Vec Ideal S1024x4096 .f32) (v1 : Vec Ideal S4096x64 .f32) (v3 : Vec Ideal S1x64 .f32)
    (p : Fin 1024) (q : Fin 64) :
    k0_pay1 (F := Ideal) v0 v1 v3 (ix2 p q) = softRecip (blockLogit v0 v1 v3 p) q := by
  rw [pay_eq, tail_at]
  exact congrArg (fun l => softRecip l q) (funext fun e => head_at v0 v1 v3 p e)

end Cert.Router.Pay

end
-- ==== Proof.KernelArr.lean ====
/-
  From blocks to the array: after the kernel's run the result array is `probsRecip` of the three arguments.

  Grid point t handles tokens 1024 t … 1024 t + 1023: its block of `x` is those rows (all 4096 columns), its blocks of `W` and
  of the bias row are the whole arrays at every point, and it writes back rows 1024 t … 1024 t + 1023 of the result. So
  row p of the block's logits is token (1024 t + p)'s logits, what point t writes back is block t of `probsRecip`, and the
  32 blocks tile the 32768 rows: row r lies in the block of point r / 1024.
-/
import proofs.«154002_g36782099923439_cont_sun_c4_695_4_alg».proof.Proof.Gen.KernelIdeal.Value
import proofs.«154002_g36782099923439_cont_sun_c4_695_4_alg».proof.Proof.KernelPay
import proofs.«154002_g36782099923439_cont_sun_c4_695_4_alg».proof.Proof.Router
import Idealize.ShloMosaic.Lib.Pipeline.Value
import Idealize.ShloMosaic.Lib.StableHlo.Run
import Idealize.ShloMosaic.Lib.ValueLayout

noncomputable section

open scoped BigOperators

open Idealize.ShloMosaic Idealize.ShloMosaic.TcCoe Idealize.SL.Sem
open Idealize.ShloMosaic.Pipeline (Dat)

namespace Cert.Router.Arr

open Idealize.ShloMosaic.ValueIdx Cert.Softmax Cert.Router Cert.Router.Pay
open Cert.KernelIdeal Cert.KernelIdeal.Gen Cert.KernelIdeal.Value

variable (m : (ℓ : Loc nD τ sig) → Buf (Elt Ideal) ℓ) (ρ : Dev nD → PrngReg)

theorem zero_offsets : (![0, 0] : Fin 2 → Nat) = fun _ => 0 := funext fun a => by fin_cases a <;> rfl

/-- The printed index maps over the 32 grid points: the blocks of `x` and of the result move down with the point, their
    column block stays 0; the blocks of `W` and of the bias row never move. -/
theorem index_maps : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The result array `G`: the reciprocal-normalised probabilities of the arguments as launched. -/
abbrev G (c : Dev nD) : S32768x64.Idx → EReal :=
  probsRecip (m ((c : Thread nD τ).loc main_arg0)) (m ((c : Thread nD τ).loc main_arg1)) (m ((c : Thread nD τ).loc main_arg2))

/-- Point t's block of `x` at (p, k) is `x` at row 1024 t + p, column k. -/
theorem xblk_at (c : Dev nD) (t : Fin cfg0.N) (p : Fin 1024) (k : Fin 4096) (r : Fin 32768) (hr : r.val = t.val * 1024 + p.val) :
    (iblk m c 0 t : Vec Ideal S1024x4096 .f32) (ix2 p k)
      = (m ((c : Thread nD τ).loc main_arg0) : S32768x4096.Idx → EReal) (ix2 r k) := by
  obtain ⟨e0, e1, -⟩ := index_maps t
  unfold iblk
  rw [View.read_apply]
  show V m c main_arg0 _ = _
  rw [V_main_arg0]
  refine congrArg _ (funext fun a => Fin.ext ?_)
  match a with
  | ⟨0, _⟩ => show win0_0.index t (0 : Fin 2) * 1024 + 1 * p.val = r.val; omega
  | ⟨1, _⟩ => show win0_0.index t (1 : Fin 2) * 4096 + 1 * k.val = k.val; omega

/-- Every point's block of `W` is `W`. -/
theorem wblk_at (c : Dev nD) (t : Fin cfg0.N) (k : Fin 4096) (e : Fin 64) :
    (iblk m c 1 t : Vec Ideal S4096x64 .f32) (ix2 k e)
      = (m ((c : Thread nD τ).loc main_arg1) : S4096x64.Idx → EReal) (ix2 k e) := by
  obtain ⟨-, -, e0, e1, -⟩ := index_maps t
  unfold iblk
  rw [View.read_apply]
  show V m c main_arg1 _ = _
  rw [V_main_arg1]
  refine congrArg _ (funext fun a => Fin.ext ?_)
  match a with
  | ⟨0, _⟩ => show win0_1.index t (0 : Fin 2) * 4096 + 1 * k.val = k.val; omega
  | ⟨1, _⟩ => show win0_1.index t (1 : Fin 2) * 64 + 1 * e.val = e.val; omega

/-- The bias row the region finds is the bias vector laid out as one row. -/
theorem bias_row (c : Dev nD) :
    (V m c main_v0 : S1x64.Idx → EReal)
      = shapeCast S1x64 (m ((c : Thread nD τ).loc main_arg2) : S64.Idx → EReal) shapeCasts_S64_S1x64 := by
  dsimp only [V, hostOps0]
  after_results
  rfl

/-- Every point's block of the bias row at (0, e) is the bias at e. -/
theorem bblk_at (c : Dev nD) (t : Fin cfg0.N) (e : Fin 64) :
    (iblk m c 2 t : Vec Ideal S1x64 .f32) (ix2 (0 : Fin 1) e)
      = (m ((c : Thread nD τ).loc main_arg2) : S64.Idx → EReal) (ix1 e) := by
  obtain ⟨-, -, -, -, e0, e1, -⟩ := index_maps t
  unfold iblk
  rw [View.read_apply]
  show V m c main_v0 _ = _
  rw [bias_row]
  refine Eq.trans (congrArg _ (funext fun a => Fin.ext ?_)) (shapeCast_a_1a_apply _ shapeCasts_S64_S1x64 (0 : Fin 1) e)
  match a with
  | ⟨0, _⟩ => show win0_2.index t (0 : Fin 2) * 1 + 1 * 0 = 0; omega
  | ⟨1, _⟩ => show win0_2.index t (1 : Fin 2) * 64 + 1 * e.val = e.val; omega

/-- Row p of point t's block logits is token (1024 t + p)'s logits. -/
theorem blockLogit_eq (c : Dev nD) (t : Fin cfg0.N) (p : Fin 1024) (r : Fin 32768) (hr : r.val = t.val * 1024 + p.val) :
    blockLogit (iblk m c 0 t) (iblk m c 1 t) (iblk m c 2 t) p
      = logit (m ((c : Thread nD τ).loc main_arg0)) (m ((c : Thread nD τ).loc main_arg1)) (m ((c : Thread nD τ).loc main_arg2)) r := by
  funext e
  unfold blockLogit logit
  refine congrArg₂ (· + ·) (Finset.sum_congr rfl fun k _ => ?_) (bblk_at m c t e)
  exact congrArg₂ (· * ·) (xblk_at m c t p k r hr) (wblk_at m c t k e)

/-- What point t writes back is block t of `G`. -/
theorem flushed_eq (c : Dev nD) (t : Fin cfg0.N) :
    (dats m 0 c).flushed 3 t = ((cfg0.win 3).blk t).view.read (Elt Ideal) (G m c) := by
  rw [flushed3]
  unfold out0_3
  rw [View.canon_unit_zero zero_offsets]
  simp only [View.ld_unit_zero (S := S1024x4096) zero_offsets, View.ld_unit_zero (S := S4096x64) zero_offsets,
    View.ld_unit_zero (S := S1x64) zero_offsets]
  obtain ⟨-, -, -, -, -, -, e0, e1⟩ := index_maps t
  have hN : cfg0.N = 32 := N_0
  funext j
  obtain ⟨p, q, rfl⟩ : ∃ (p : Fin 1024) (q : Fin 64), j = ix2 p q := ⟨j 0, j 1, eq_ix2 j⟩
  have hr : t.val * 1024 + p.val < 32768 := by have := t.isLt; have := p.isLt; omega
  show k0_pay1 (F := Ideal) (iblk m c 0 t) (iblk m c 1 t) (iblk m c 2 t) (ix2 p q) = G m c (((cfg0.win 3).blk t).view.emb (ix2 p q))
  refine (pay_at (iblk m c 0 t) (iblk m c 1 t) (iblk m c 2 t) p q).trans ?_
  rw [blockLogit_eq m c t p ⟨t.val * 1024 + p.val, hr⟩ rfl]
  have hemb : ((cfg0.win 3).blk t).view.emb (ix2 p q) = (ix2 (⟨t.val * 1024 + p.val, hr⟩ : Fin 32768) q : S32768x64.Idx) :=
    funext fun a => Fin.ext (by
      match a with
      | ⟨0, _⟩ => show win0_3.index t (0 : Fin 2) * 1024 + 1 * p.val = t.val * 1024 + p.val; omega
      | ⟨1, _⟩ => show win0_3.index t (1 : Fin 2) * 64 + 1 * q.val = q.val; omega)
  rw [hemb]
  rfl

/-- An index of the result array is in point t's block iff each coordinate is in the block's range on its axis. -/
theorem mem_blk (t : Fin cfg0.N) (i : S32768x64.Idx) :
    i ∈ ((cfg0.win 3).blk t).view.set ↔ ∀ a : Fin 2, win0_3.index t a * S1024x64.size a ≤ (i a).val ∧ (i a).val < win0_3.index t a * S1024x64.size a + S1024x64.size a := by
  show i ∈ ((View.whole main_v1).slice (win0_3.rect t)).set ↔ _
  rw [View.set_slice_whole, Rect.mem_set_unit]
  exact Iff.rfl

/-- Every index of the result array lies in some point's block: row r in the block of point r / 1024. -/
theorem cover (i : S32768x64.Idx) : ∃ t : Fin cfg0.N, (cfg0.win 3).flush t = true ∧ i ∈ ((cfg0.win 3).blk t).view.set := by
  have hN : cfg0.N = 32 := N_0
  have hi0 : (i 0).val < 32768 := (i 0).isLt
  have hi1 : (i 1).val < 64 := (i 1).isLt
  refine ⟨⟨(i 0).val / 1024, by omega⟩, flush0_3 _, ?_⟩
  rw [mem_blk]
  obtain ⟨-, -, -, -, -, -, e0, e1⟩ := index_maps ⟨(i 0).val / 1024, by omega⟩
  intro a
  match a with
  | ⟨0, _⟩ =>
    show win0_3.index _ (0 : Fin 2) * 1024 ≤ (i 0).val ∧ (i 0).val < win0_3.index _ (0 : Fin 2) * 1024 + 1024
    rw [e0]
    show (i 0).val / 1024 * 1024 ≤ (i 0).val ∧ (i 0).val < (i 0).val / 1024 * 1024 + 1024
    omega
  | ⟨1, _⟩ =>
    show win0_3.index _ (1 : Fin 2) * 64 ≤ (i 1).val ∧ (i 1).val < win0_3.index _ (1 : Fin 2) * 64 + 64
    rw [e1]
    omega

/-- The result array after the run is `G`. -/
theorem final (c : Dev nD) : (dats m 0 c).arrAt 3 cfg0.N = G m c :=
  (dats m 0 c).arrAt_eq_of_cover 3 (G m c) (fun t _ => flushed_eq m c t) cover

/-- The kernel's run, read: the result array at `probsRecip` of the arguments, the arguments unchanged. -/
theorem run : θ_run defs (onTc (τ := τ) (main (F := Ideal))) ⟨m, fun _ => 0, ρ⟩ fun r => ∀ c : Dev nD,
      r.2.mem ((c : Thread nD τ).loc main_v1) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.Router.Arr

end
-- ==== Proof.lean ====
/-
  A mixture-of-experts router: probabilities = softmax (x · W + b) over 64 experts for 32768 tokens of width 4096.

  The kernel walks 32 blocks of 1024 tokens; on each it forms the block's logits (a matrix product into a zero
  accumulator plus the bias row), takes each row's maximum, exponentiates the differences, sums each row, and multiplies
  the exponentials by the RECIPROCAL of the row's sum. The reference forms all logits at once and DIVIDES the
  exponentials by the row's sum.

  On the extended reals a quotient `a / s` is `a * s⁻¹` off `s = 0`, and the reciprocal `1 / s` is `1 * s⁻¹` there, so the two
  normalisations agree wherever no row's sum of exponentials is zero. The precondition makes every entry of `x`, `W`
  and `b` a real number; then every logit is real, every row's maximum is real, every shifted exponential is the
  exponential of a real and so positive, and a sum of nonnegative terms with a positive one is not zero.

  Modules: Softmax (the row softmax in both spellings and the law between them), Router (the whole array as one
  function of the arguments, and the law on real arrays), Finite (the precondition read back), RefRead (the
  reference's stages at an index), KernelPay (the body's payload at an index), KernelArr (from the blocks each grid
  point writes back to the whole result array).
-/
import proofs.«154002_g36782099923439_cont_sun_c4_695_4_alg».proof.Defs
import proofs.«154002_g36782099923439_cont_sun_c4_695_4_alg».proof.Proof.Gen.Kernel
import proofs.«154002_g36782099923439_cont_sun_c4_695_4_alg».proof.Proof.Gen.Kernel.Skeleton
import proofs.«154002_g36782099923439_cont_sun_c4_695_4_alg».proof.Proof.Gen.Kernel.Launch
import proofs.«154002_g36782099923439_cont_sun_c4_695_4_alg».proof.Proof.Gen.Kernel.Points
import proofs.«154002_g36782099923439_cont_sun_c4_695_4_alg».proof.Proof.Gen.Kernel.Frame
import proofs.«154002_g36782099923439_cont_sun_c4_695_4_alg».proof.Proof.Gen.KernelIdeal
import proofs.«154002_g36782099923439_cont_sun_c4_695_4_alg».proof.Proof.Gen.KernelIdeal.Skeleton
import proofs.«154002_g36782099923439_cont_sun_c4_695_4_alg».proof.Proof.Gen.KernelIdeal.Launch
import proofs.«154002_g36782099923439_cont_sun_c4_695_4_alg».proof.Proof.Gen.KernelIdeal.Points
import proofs.«154002_g36782099923439_cont_sun_c4_695_4_alg».proof.Proof.Gen.KernelIdeal.Frame
import proofs.«154002_g36782099923439_cont_sun_c4_695_4_alg».proof.Proof.Gen.ReferenceIdeal
import proofs.«154002_g36782099923439_cont_sun_c4_695_4_alg».proof.Proof.Gen.Pre_finite_inputs
import proofs.«154002_g36782099923439_cont_sun_c4_695_4_alg».proof.Proof.Gen.KernelIdeal.Value
import proofs.«154002_g36782099923439_cont_sun_c4_695_4_alg».proof.Proof.Gen.ReferenceIdeal.Run
import proofs.«154002_g36782099923439_cont_sun_c4_695_4_alg».proof.Proof.Gen.ReferenceIdeal.Read
import proofs.«154002_g36782099923439_cont_sun_c4_695_4_alg».proof.Proof.Router
import proofs.«154002_g36782099923439_cont_sun_c4_695_4_alg».proof.Proof.Finite
import proofs.«154002_g36782099923439_cont_sun_c4_695_4_alg».proof.Proof.RefRead
import proofs.«154002_g36782099923439_cont_sun_c4_695_4_alg».proof.Proof.KernelArr
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the same array: the kernel's is the reciprocal-normalised probabilities of the arguments, the
    reference's the quotient-normalised ones, and on the real arrays the precondition admits these are one array. -/
theorem algebraic : Cert.algebraic_KernelIdeal_ReferenceIdeal := by
  intro m ρ m' ρ' hpre hagree
  refine ⟨fun c => Cert.Router.Arr.G m c, Cert.Router.Arr.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.Router.Ref.result_eq, (hagree c).1, (hagree c).2.1, (hagree c).2.2]
  obtain ⟨hx, hW, hb⟩ := Cert.Router.Finite.reals_of_pre _ _ _ (hpre c)
  exact (Cert.Router.probsRecip_eq_probsQuot _ _ _ hx hW hb).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
